-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x1024 : Shape := ⟨3, ![256, 64, 1024]⟩
abbrev S256 : Shape := ⟨1, ![256]⟩
abbrev S64x1024x1024 : Shape := ⟨3, ![64, 1024, 1024]⟩
abbrev S64x1024 : Shape := ⟨2, ![64, 1024]⟩
abbrev S_ : Shape := ⟨0, ![]⟩

class Facts : Prop where
  bcast_S_S256x64x1024 : S_.BroadcastsInDim S256x64x1024 (![] : Fin 0 → Fin S256x64x1024.rank)
  reducesTo_S256x64x1024_S_d0_1_2 : S256x64x1024.ReducesTo [0, 1, 2] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024 : S_.BroadcastsInDim S64x1024 (![] : Fin 0 → Fin S64x1024.rank)
  reducesTo_S64x1024_S_d0_1 : S64x1024.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg1 : IVec S256 32) (main_v13 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v13 main_v16
  let main_c_6 : IVec S_ 32 := constantI S_ 32 64#32
  let main_v18 : IVec S256 32 := broadcastInDim S256 ![] bcast_S_S256 main_c_6
  let main_v19 : IVec S256 1 := cmpi .slt main_arg1 main_v18
  let main_c_7 : IVec S_ 1 := constantI S_ 1 1#1
  let main_v20 : IVec S_ 1 := (fun x v => Host.reduce IntOp.andi x v reducesTo_S256_S_d0 h_S_) main_v19 main_c_7
  let main_v21 : IVec S_ 1 := andi main_v17 main_v20
  main_v21

def fn {F : FTy → Type} [FloatOps F] (main_arg0 : FVec F S256x64x1024 .f32) (main_arg1 : IVec S256 32) (main_arg2 : FVec F S64x1024x1024 .f32) (main_arg3 : FVec F S64x1024 .f32) : IVec S_ 1 :=
  let main_v0 : FVec F S256x64x1024 .f32 := Host.absf main_arg0
  let main_cst : FVec F S_ .f32 := constant S_ .f32 0x7F800000#32
  let main_v1 : FVec F S256x64x1024 .f32 := broadcastInDim S256x64x1024 ![] bcast_S_S256x64x1024 main_cst
  let main_v2 : IVec S256x64x1024 1 := cmpf .olt main_v0 main_v1
  let main_c : IVec S_ 1 := constantI S_ 1 1#1
  let main_v3 : IVec S_ 1 := (fun x v => Host.reduce IntOp.andi x v reducesTo_S256x64x1024_S_d0_1_2 h_S_) main_v2 main_c
  let main_v4 : FVec F S64x1024x1024 .f32 := Host.absf main_arg2
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S64x1024 .f32 := Host.absf main_arg3
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg1 main_v14
  let main_c_5 : IVec S_ 1 := constantI S_ 1 1#1
  fn_part1 (F := F) main_arg1 main_v13 main_v15 main_c_5
-- ==== Kernel.lean ====
abbrev S256x64x1024 : Shape := ⟨3, ![256, 64, 1024]⟩
abbrev S256 : Shape := ⟨1, ![256]⟩
abbrev S64x1024x1024 : Shape := ⟨3, ![64, 1024, 1024]⟩
abbrev S64x1024 : Shape := ⟨2, ![64, 1024]⟩
abbrev S_ : Shape := ⟨0, ![]⟩
abbrev S256x1 : Shape := ⟨2, ![256, 1]⟩
abbrev S64x1x1024 : Shape := ⟨3, ![64, 1, 1024]⟩
abbrev S1x64x1024 : Shape := ⟨3, ![1, 64, 1024]⟩
abbrev S1 : Shape := ⟨1, ![1]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 24
  | .vmem => 8
  | .smem => 2
  | _ => 0

abbrev bufTy : (tb : Table) → Fin (tcTables nBuf tb) → BufTy
  | .hbm, ⟨0, _⟩ => ⟨S256x64x1024, .f32⟩
  | .hbm, ⟨1, _⟩ => ⟨S256, .i32⟩
  | .hbm, ⟨2, _⟩ => ⟨S64x1024x1024, .f32⟩
  | .hbm, ⟨3, _⟩ => ⟨S64x1024, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S256, .i32⟩
  | .hbm, ⟨8, _⟩ => ⟨S256, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i1⟩
  | .hbm, ⟨17, _⟩ => ⟨S_, .i32⟩
  | .hbm, ⟨18, _⟩ => ⟨S256, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S64x1x1024, .f32⟩
  | .hbm, ⟨23, _⟩ => ⟨S256x64x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x64x1024, .f32⟩
  | .local _ .vmem, ⟨7, _⟩ => ⟨S1x64x1024, .f32⟩
  | .local _ .smem, ⟨0, _⟩ => ⟨S256, .i32⟩
  | .local _ .smem, ⟨1, _⟩ => ⟨S256, .i32⟩
  | _, _ => ⟨S256x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_v0 : Ref sig .tc := ⟨.hbm, 12, rfl⟩
abbrev main_call1_v1_0 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v9 : Ref sig .tc := ⟨.hbm, 22, rfl⟩
abbrev main_v10 : Ref sig .tc := ⟨.hbm, 23, rfl⟩
abbrev main_v1 : Ref sig .tc := ⟨.smem, 0, rfl⟩
abbrev main_v8 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![256], ![false]⟩

abbrev pre0 : Pipeline.Prefetch sig := ⟨2, ![main_v1.idx, main_v8.idx], fun | 0 => main_v1.names | 1 => main_v8.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S256.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S256) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S256 : S_.BroadcastsInDim S256 (![] : Fin 0 → Fin S256.rank)
  bcast_S256_S256x1_0 : S256.BroadcastsInDim S256x1 (![0] : Fin 1 → Fin S256x1.rank)
  shapeCasts_S64x1024_S64x1x1024 : S64x1024.ShapeCasts S64x1x1024
  numel1_S1 : S1.numel = 1
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S64x1024 : S1x1024.Broadcasts S64x1024
  shapeCasts_S64x1024_S1x64x1024 : S64x1024.ShapeCasts S1x64x1024
  gather_S256_S256x1_S256_n_0_n_n_0_1_1_wf : GatherDims.WF S256 S256x1 S256 [] [0] [] [0] [] 1 ![1]
  dot_S64x1024_S1024x1024_S64x1024_1_0_0_1_n_n_wf : DotDims.WF S64x1024 S1024x1024 S64x1024 [1] [0] [0] [1] [] []
  hrank0 : 0 < grid0.rank
  k0_off1_inb : ∀ i : grid0.Coords, ∀ a, (k0_off1 i) a + S1.size a ≤ S256.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S256_S256x1_S256_n_0_n_n_0_1_1 : GatherDims S256 S256x1 S256 where
  offsetDims := []
  collapsedSliceDims := [0]
  operandBatchingDims := []
  startIndicesBatchingDims := []
  startIndexMap := [0]
  indexVectorDim := 1
  sliceSizes := ![1]
  wf := gather_S256_S256x1_S256_n_0_n_n_0_1_1_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev spec0_0 : Pipeline.WinSpec sig grid0.rank :=
  Pipeline.WinSpec.ofSpec (Memref.whole main_arg0) S1x64x1024.size reads0_0 false false 2 stage0_0 sem0_0 nbuf0_0 hstage0_0

abbrev spec0_1 : Pipeline.WinSpec sig grid0.rank :=
  Pipeline.WinSpec.ofSpec (Memref.whole main_arg2) S1x1024x1024.size reads0_1 false false 2 stage0_1 sem0_1 nbuf0_1 hstage0_1

abbrev spec0_2 : Pipeline.WinSpec sig grid0.rank :=
  Pipeline.WinSpec.ofSpec (Memref.whole main_v9) S1x1x1024.size reads0_2 false false 2 stage0_2 sem0_2 nbuf0_2 hstage0_2

abbrev spec0_3 : Pipeline.WinSpec sig grid0.rank :=
  Pipeline.WinSpec.ofSpec (Memref.whole main_v10) S1x64x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x64x1024.size a ≤ S256x64x1024.size a), EltTy.bits .f32 = 32 ∨ (Rect.block (s := S256x64x1024) S1x64x1024.size (cc0_transform_0 k0_off1_inb numel1_S1 pf i) h).WholeWords (EltTy.packing .f32)) ∧
  (∀ i : grid0.Coords, ∃ h : (∀ a, (cc0_transform_1 k0_off1_inb numel1_S1 pf i a + 1) * S1x1024x1024.size a ≤ S64x1024x1024.size a), EltTy.bits .f32 = 32 ∨ (Rect.block (s := S64x1024x1024) S1x1024x1024.size (cc0_transform_1 k0_off1_inb numel1_S1 pf i) h).WholeWords (EltTy.packing .f32)) ∧
  (∀ i : grid0.Coords, ∃ h : (∀ a, (cc0_transform_2 k0_off1_inb numel1_S1 pf i a + 1) * S1x1x1024.size a ≤ S64x1x1024.size a), EltTy.bits .f32 = 32 ∨ (Rect.block (s := S64x1x1024) S1x1x1024.size (cc0_transform_2 k0_off1_inb numel1_S1 pf i) h).WholeWords (EltTy.packing .f32)) ∧
  (∀ i : grid0.Coords, ∃ h : (∀ a, (cc0_transform_3 k0_off1_inb numel1_S1 pf i a + 1) * S1x64x1024.size a ≤ S256x64x1024.size a), EltTy.bits .f32 = 32 ∨ (Rect.block (s := S256x64x1024) S1x64x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S256x64x1024 : Shape := ⟨3, ![256, 64, 1024]⟩
abbrev S256 : Shape := ⟨1, ![256]⟩
abbrev S64x1024x1024 : Shape := ⟨3, ![64, 1024, 1024]⟩
abbrev S64x1024 : Shape := ⟨2, ![64, 1024]⟩
abbrev S_ : Shape := ⟨0, ![]⟩
abbrev S256x1 : Shape := ⟨2, ![256, 1]⟩
abbrev S256x1024x1024 : Shape := ⟨3, ![256, 1024, 1024]⟩
abbrev S256x1024 : Shape := ⟨2, ![256, 1024]⟩
abbrev S256x1x1024 : Shape := ⟨3, ![256, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S256x64x1024, .f32⟩
  | .hbm, ⟨1, _⟩ => ⟨S256, .i32⟩
  | .hbm, ⟨2, _⟩ => ⟨S64x1024x1024, .f32⟩
  | .hbm, ⟨3, _⟩ => ⟨S64x1024, .f32⟩
  | .hbm, ⟨4, _⟩ => ⟨S_, .i32⟩
  | .hbm, ⟨5, _⟩ => ⟨S256, .i32⟩
  | .hbm, ⟨6, _⟩ => ⟨S256, .i1⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S256x1024x1024, .f32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S_, .i32⟩
  | .hbm, ⟨17, _⟩ => ⟨S256, .i32⟩
  | .hbm, ⟨18, _⟩ => ⟨S256, .i32⟩
  | .hbm, ⟨19, _⟩ => ⟨S256, .i32⟩
  | .hbm, ⟨20, _⟩ => ⟨S256x1, .i32⟩
  | .hbm, ⟨21, _⟩ => ⟨S256x1024, .f32⟩
  | .hbm, ⟨22, _⟩ => ⟨S256x64x1024, .f32⟩
  | .hbm, ⟨23, _⟩ => ⟨S256x1x1024, .f32⟩
  | .hbm, ⟨24, _⟩ => ⟨S256x64x1024, .f32⟩
  | .hbm, ⟨25, _⟩ => ⟨S256x64x1024, .f32⟩
  | _, _ => ⟨S256x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S256x1024_S256x1x1024_0_2 : S256x1024.BroadcastsInDim S256x1x1024 (![0, 2] : Fin 2 → Fin S256x1x1024.rank)
  bcast_S256x1x1024_S256x64x1024_0_1_2 : S256x1x1024.BroadcastsInDim S256x64x1024 (![0, 1, 2] : Fin 3 → Fin S256x64x1024.rank)
  gather_S64x1024x1024_S256x1_S256x1024x1024_12_0_n_n_0_1_110241024_wf : GatherDims.WF S64x1024x1024 S256x1 S256x1024x1024 [1, 2] [0] [] [0] [] 1 ![1, 1024, 1024]
  gather_S64x1024_S256x1_S256x1024_1_0_n_n_0_1_11024_wf : GatherDims.WF S64x1024 S256x1 S256x1024 [1] [0] [] [0] [] 1 ![1, 1024]
  dot_S256x64x1024_S256x1024x1024_S256x64x1024_2_1_1_2_0_0_wf : DotDims.WF S256x64x1024 S256x1024x1024 S256x64x1024 [2] [1] [1] [2] [0] [0]

variable [Facts₀]

def gather_S64x1024x1024_S256x1_S256x1024x1024_12_0_n_n_0_1_110241024 : GatherDims S64x1024x1024 S256x1 S256x1024x1024 where
  offsetDims := [1, 2]
  collapsedSliceDims := [0]
  operandBatchingDims := []
  startIndicesBatchingDims := []
  startIndexMap := [0]
  indexVectorDim := 1
  sliceSizes := ![1, 1024, 1024]
  wf := gather_S64x1024x1024_S256x1_S256x1024x1024_12_0_n_n_0_1_110241024_wf
def gather_S64x1024_S256x1_S256x1024_1_0_n_n_0_1_11024 : GatherDims S64x1024 S256x1 S256x1024 where
  offsetDims := [1]
  collapsedSliceDims := [0]
  operandBatchingDims := []
  startIndicesBatchingDims := []
  startIndexMap := [0]
  indexVectorDim := 1
  sliceSizes := ![1, 1024]
  wf := gather_S64x1024_S256x1_S256x1024_1_0_n_n_0_1_11024_wf
def dot_S256x64x1024_S256x1024x1024_S256x64x1024_2_1_1_2_0_0 : DotDims S256x64x1024 S256x1024x1024 S256x64x1024 where
  lhsContracting := [2]
  rhsContracting := [1]
  lhsNonContracting := [1]
  rhsNonContracting := [2]
  lhsBatch := [0]
  rhsBatch := [0]
  wf := dot_S256x64x1024_S256x1024x1024_S256x64x1024_2_1_1_2_0_0_wf

class Facts : Prop extends Facts₀ where

variable [Facts]
-- ==== Proof.LibWords.lean ====
/-
  General facts about 32-bit words and rank-1 sorts, used to read an integer table that a host program computes by a
  clamp, an argsort and a take.

  * `clip63 w` is the signed clamp of `w` into [0, 63]: `min 63 (max 0 w)` on signed readings. Whatever `w` is, the
    result read unsigned is below 64; when `0 ≤ w < 64` signed, the clamp is the identity.
  * A word whose unsigned reading is below 2^31 reads the same signed and unsigned.
  * The second component of a stable two-operand sort along the one axis of a rank-1 shape reads the second operand
    through ONE self-map of the positions (the stable sorting permutation of the pairs), and that self-map is a bijection.
-/
import Idealize.ShloMosaic.PureOps
import Idealize.ShloMosaic.Lib.SortFacts

noncomputable section

namespace Cert.WordsLib

open Idealize.ShloMosaic

/-- The signed clamp of a word into [0, 63]. -/
def clip63 (w : BitVec 32) : BitVec 32 := IntOp.minsi 63#32 (IntOp.maxsi 0#32 w)

/-- A word's signed reading, by the sign bit. -/
theorem toInt_cases (w : BitVec 32) :
    (w.toNat < 2 ^ 31 ∧ w.toInt = (w.toNat : Int)) ∨ (2 ^ 31 ≤ w.toNat ∧ w.toInt = (w.toNat : Int) - 2 ^ 32) := by
  have h32 := w.isLt
  unfold BitVec.toInt
  split <;> omega

/-- The three cases of the clamp: below the range it is 0, inside it the word itself, above it 63. -/
theorem clip63_cases (w : BitVec 32) :
    (w.toInt < 0 ∧ clip63 w = 0#32) ∨ (0 ≤ w.toInt ∧ w.toInt ≤ 63 ∧ clip63 w = w) ∨ (63 < w.toInt ∧ clip63 w = 63#32) := by
  have h0 : (0#32 : BitVec 32).toInt = 0 := by decide
  have h63 : (63#32 : BitVec 32).toInt = 63 := by decide
  unfold clip63 IntOp.minsi IntOp.maxsi
  simp only [BitVec.slt, decide_eq_true_eq]
  by_cases hneg : w.toInt < (0#32 : BitVec 32).toInt
  · rw [if_pos hneg]
    rw [if_neg (by rw [h63, h0]; omega)]
    exact Or.inl ⟨by rw [h0] at hneg; exact hneg, rfl⟩
  · rw [if_neg hneg]
    rw [h0] at hneg
    by_cases hbig : (63#32 : BitVec 32).toInt < w.toInt
    · rw [if_pos hbig]
      exact Or.inr (Or.inr ⟨by rw [h63] at hbig; exact hbig, rfl⟩)
    · rw [if_neg hbig]
      rw [h63] at hbig
      exact Or.inr (Or.inl ⟨by omega, by omega, rfl⟩)

/-- Whatever the word, its clamp read unsigned is below 64. -/
theorem clip63_toNat_lt (w : BitVec 32) : (clip63 w).toNat < 64 := by
  rcases clip63_cases w with ⟨_, e⟩ | ⟨h0, h1, e⟩ | ⟨_, e⟩
  · rw [e]; decide
  · rw [e]
    rcases toInt_cases w with ⟨_, e'⟩ | ⟨_, e'⟩ <;> omega
  · rw [e]; decide

/-- A word in [0, 64) signed is its own clamp. -/
theorem clip63_of_range (w : BitVec 32) (h0 : 0 ≤ w.toInt) (h1 : w.toInt < 64) : clip63 w = w := by
  rcases clip63_cases w with ⟨h, _⟩ | ⟨_, _, e⟩ | ⟨h, _⟩
  · omega
  · exact e
  · omega

/-- A word below 2^31 unsigned reads the same signed, so its signed reading's natural number is its unsigned one. -/
theorem toInt_toNat_of_lt (w : BitVec 32) (h : w.toNat < 2 ^ 31) : w.toInt.toNat = w.toNat := by
  rcases toInt_cases w with ⟨_, e⟩ | ⟨h', _⟩
  · rw [e]; exact Int.toNat_natCast _
  · omega

/-- The signed comparisons of a printed range test, decoded: `w ≥ 0` and `w < 64` signed. -/
theorem range_of_cmpi (w : BitVec 32) (h0 : IntOp.cmpi .sge w 0#32 = 1#1) (h1 : IntOp.cmpi .slt w 64#32 = 1#1) :
    0 ≤ w.toInt ∧ w.toInt < 64 := by
  have e0 : (0#32 : BitVec 32).toInt = 0 := by decide
  have e64 : (64#32 : BitVec 32).toInt = 64 := by decide
  unfold IntOp.cmpi at h0 h1
  have b : ∀ b : Bool, BitVec.ofBool b = 1#1 → b = true := by decide
  have h0' := b _ h0
  have h1' := b _ h1
  simp only [BitVec.slt, BitVec.sle, decide_eq_true_eq] at h0' h1'
  rw [e0] at h0'
  rw [e64] at h1'
  exact ⟨h0', h1'⟩

/-- jax's wrap of a negative index (`select (p < 0) (p + n) p`) leaves a word that is not negative as it is. -/
theorem select_wrap_of_nonneg (p n : BitVec 32) (hp : p.toNat < 2 ^ 31) :
    Scalar.select (IntOp.cmpi .slt p 0#32) (IntOp.addi p n) p = p := by
  have e0 : (0#32 : BitVec 32).toInt = 0 := by decide
  have hc : IntOp.cmpi .slt p 0#32 = 0#1 := by
    unfold IntOp.cmpi
    have : p.slt 0#32 = false := by
      simp only [BitVec.slt, decide_eq_false_iff_not, e0]
      rcases toInt_cases p with ⟨_, e⟩ | ⟨h, _⟩ <;> omega
    rw [this]; rfl
  rw [hc]
  exact if_neg (by decide)

/-! ## A rank-1 two-operand stable sort -/

/-- The stable sorting permutation of the pairs `(x k, y k)` of two rank-1 tables under `cmp`: sorted position `k` holds
    the pair at position `sortPerm cmp x y k`. -/
def sortPerm {n : Nat} {α β : Type} (cmp : α × β → α × β → BitVec 1) (x : (⟨1, ![n]⟩ : Shape).Idx → α)
    (y : (⟨1, ![n]⟩ : Shape).Idx → β) : Fin n → Fin n :=
  sortedFrom fun k k' => cmp (x (Shape.Idx.ofFin k), y (Shape.Idx.ofFin k)) (x (Shape.Idx.ofFin k'), y (Shape.Idx.ofFin k')) == 1#1

theorem sortPerm_surjective {n : Nat} {α β : Type} (cmp : α × β → α × β → BitVec 1) (x : (⟨1, ![n]⟩ : Shape).Idx → α)
    (y : (⟨1, ![n]⟩ : Shape).Idx → β) : Function.Surjective (sortPerm cmp x y) := sortedFrom_surjective _

theorem sortPerm_injective {n : Nat} {α β : Type} (cmp : α × β → α × β → BitVec 1) (x : (⟨1, ![n]⟩ : Shape).Idx → α)
    (y : (⟨1, ![n]⟩ : Shape).Idx → β) : Function.Injective (sortPerm cmp x y) := sortedFrom_injective _

/-- The identity table read at a position is that position, as a word. -/
theorem iota_ofFin {n : Nat} (k : Fin n) : iotaInDim (⟨1, ![n]⟩ : Shape) 32 0 (Shape.Idx.ofFin k) = BitVec.ofNat 32 k.val := rfl

/-- The carried operand of a rank-1 two-operand sort, read at `j`: the operand at the sorting permutation of `j`'s
    coordinate. -/
theorem sort2_snd_rank1 {n : Nat} {α β : Type} (cmp : α × β → α × β → BitVec 1) (x : (⟨1, ![n]⟩ : Shape).Idx → α)
    (y : (⟨1, ![n]⟩ : Shape).Idx → β) (j : (⟨1, ![n]⟩ : Shape).Idx) :
    (Host.sort2 ⟨1, ![n]⟩ 0 cmp x y).2 j = y (Shape.Idx.ofFin (sortPerm cmp x y (j 0))) := by
  unfold Host.sort2 sortPerm
  simp

/-- An argsort of a rank-1 table (a two-operand sort carrying the identity table), read at `j`: the sorting permutation
    of `j`'s coordinate, as a word. -/
theorem argsort_rank1 {n : Nat} {α : Type} (cmp : α × BitVec 32 → α × BitVec 32 → BitVec 1) (x : (⟨1, ![n]⟩ : Shape).Idx → α)
    (j : (⟨1, ![n]⟩ : Shape).Idx) :
    (Host.sort2 ⟨1, ![n]⟩ 0 cmp x (iotaInDim (⟨1, ![n]⟩ : Shape) 32 0)).2 j
      = BitVec.ofNat 32 (sortPerm cmp x (iotaInDim (⟨1, ![n]⟩ : Shape) 32 0) (j 0)).val :=
  (sort2_snd_rank1 cmp x _ j).trans (iota_ofFin _)

-- from here on the permutation is known only through the facts above: nothing downstream evaluates a sort
attribute [irreducible] sortPerm

end Cert.WordsLib

end
-- ==== Proof.TablesBits.lean ====
/-
  The two integer tables the kernel's index maps read, as functions of the category ids, and the side condition
  of the tables under which the kernel's run is stated.

  The host part of the program clamps the ids into [0, 63] (`clipv`), sorts the positions 0 … 255 stably by the
  clamped id (`permv`: the sorted positions, an argsort), and takes the clamped ids at the sorted positions
  (`sidv`). Table 0 is `permv`, table 1 is `sidv`. Every entry of `permv` is a position, so it is below 256; every
  entry of `sidv` is one of the clamped ids, so it is below 64. Hence at every grid point the block of the
  [256, 64, 1024] arrays named by table 0 and the block of the [64, …] arrays named by table 1 lie inside their
  arrays, whatever the ids are: the side condition holds of every launch memory.
-/
import proofs.«424918_j82471962017991_2_alg».proof.Proof.Gen.Kernel.Frame
import proofs.«424918_j82471962017991_2_alg».proof.Proof.LibWords
import Idealize.ShloMosaic.Lib.StableHlo.Run
import Idealize.ShloMosaic.Lib.Pipeline.Value

set_option maxRecDepth 16384

noncomputable section

namespace Cert.Kernel.Tables

open Cert.Kernel Cert.Kernel.Gen
open Idealize.ShloMosaic Idealize.ShloMosaic.TcCoe Idealize.SL.Sem Idealize.ShloMosaic.StableHlo
open Cert.WordsLib

variable {F : FTy → Type} [FloatOps F]

/-- The ids clamped into [0, 63], as the host computes them: `min 63 (max 0 id)`, signed. -/
def clipv (cat : IVec S256 32) : IVec S256 32 :=
  minsi (broadcastInDim S256 ![] bcast_S_S256 (constantI S_ 32 63#32))
    (maxsi (broadcastInDim S256 ![] bcast_S_S256 (constantI S_ 32 0#32)) cat)

/-- The positions sorted stably by clamped id. -/
def permv (cat : IVec S256 32) : IVec S256 32 :=
  (Host.sort2 S256 0 comparator_i32_i32_d0 (clipv cat) (iotaInDim S256 32 0)).2

/-- The start indices of the take: a negative sorted position wrapped by 256 (none is negative), as a column. -/
def takeIdx (cat : IVec S256 32) : IVec S256x1 32 :=
  broadcastInDim S256x1 ![0] bcast_S256_S256x1_0
    (select (cmpi .slt (permv cat) (broadcastInDim S256 ![] bcast_S_S256 (constantI S_ 32 0#32)))
      (addi (permv cat) (broadcastInDim S256 ![] bcast_S_S256 (constantI S_ 32 256#32))) (permv cat))

/-- The clamped ids at the sorted positions. -/
def sidv (cat : IVec S256 32) : IVec S256 32 :=
  Host.gather gather_S256_S256x1_S256_n_0_n_n_0_1_1 (clipv cat) (takeIdx cat)

/-- A clamped id is the word clamp of the id. -/
theorem clipv_apply (cat : IVec S256 32) (i : S256.Idx) : clipv cat i = clip63 (cat i) := by
  unfold clipv clip63 minsi maxsi
  rw [broadcastInDim_apply _ bcast_S_S256 _ i (fun a => a.elim0) (fun a => a.elim0),
    broadcastInDim_apply _ bcast_S_S256 _ i (fun a => a.elim0) (fun a => a.elim0)]
  rfl

theorem clipv_lt (cat : IVec S256 32) (i : S256.Idx) : (clipv cat i).toNat < 64 := by
  rw [clipv_apply]; exact clip63_toNat_lt _

/-- The sorting permutation of the positions by clamped id. -/
def sigma (cat : IVec S256 32) : Fin 256 → Fin 256 :=
  sortPerm comparator_i32_i32_d0 (clipv cat) (iotaInDim S256 32 0)

theorem sigma_injective (cat : IVec S256 32) : Function.Injective (sigma cat) := sortPerm_injective _ _ _
theorem sigma_surjective (cat : IVec S256 32) : Function.Surjective (sigma cat) := sortPerm_surjective _ _ _

/-- Sorted position `k` holds the position `sigma cat k`, as a word. -/
theorem permv_apply (cat : IVec S256 32) (i : S256.Idx) : permv cat i = BitVec.ofNat 32 (sigma cat (i 0)).val := by
  unfold permv sigma
  exact argsort_rank1 comparator_i32_i32_d0 (clipv cat) i

theorem permv_toNat (cat : IVec S256 32) (i : S256.Idx) : (permv cat i).toNat = (sigma cat (i 0)).val := by
  rw [permv_apply, BitVec.toNat_ofNat]
  have := (sigma cat (i 0)).isLt
  omega

theorem permv_lt (cat : IVec S256 32) (i : S256.Idx) : (permv cat i).toNat < 256 := by
  rw [permv_toNat]; exact (sigma cat (i 0)).isLt

theorem sidv_lt (cat : IVec S256 32) (i : S256.Idx) : (sidv cat i).toNat < 64 := by
  unfold sidv Host.gather
  exact clipv_lt _ _

variable (m : (ℓ : Loc nD τ sig) → Buf (Elt F) ℓ)

/-- The ids the program was launched with (device 0's: the program runs on one device). -/
abbrev cat0 : IVec S256 32 := m (((0 : Dev nD) : Thread nD τ).loc main_arg1)

/-- Table 0 is the argsort of the clamped ids. -/
theorem tbl0_eq : (tbl m 0 : IVec S256 32) = permv (cat0 m) := by
  unfold tbl
  show V m 0 main_v1 = _
  dsimp only [V]
  simp only [hostOps0, hostOps0_1, hostOps0_2, hostOps0_3, List.flatten_cons, List.flatten_nil, List.append_nil,
    List.cons_append, List.nil_append]
  after_results
  rfl

/-- Table 1 is the clamped ids taken at the sorted positions. -/
theorem tbl1_eq : (tbl m 1 : IVec S256 32) = sidv (cat0 m) := by
  unfold tbl
  show V m 0 main_v8 = _
  dsimp only [V]
  simp only [hostOps0, hostOps0_1, hostOps0_2, hostOps0_3, List.flatten_cons, List.flatten_nil, List.append_nil,
    List.cons_append, List.nil_append]
  after_results_simp
  rfl

/-- The index maps at any contents of the tables: block (table word at some position, 0, 0). -/
theorem transform_0_eq (pf : pre0.Contents (Elt F)) (i : grid0.Coords) :
    ∃ x : S256.Idx, cc0_transform_0 k0_off1_inb numel1_S1 pf i = ![((pf 0 : IVec S256 32) x).toNat, 0, 0] := ⟨_, rfl⟩
theorem transform_1_eq (pf : pre0.Contents (Elt F)) (i : grid0.Coords) :
    ∃ x : S256.Idx, cc0_transform_1 k0_off1_inb numel1_S1 pf i = ![((pf 1 : IVec S256 32) x).toNat, 0, 0] := ⟨_, rfl⟩
theorem transform_2_eq (pf : pre0.Contents (Elt F)) (i : grid0.Coords) :
    ∃ x : S256.Idx, cc0_transform_2 k0_off1_inb numel1_S1 pf i = ![((pf 1 : IVec S256 32) x).toNat, 0, 0] := ⟨_, rfl⟩
theorem transform_3_eq (pf : pre0.Contents (Elt F)) (i : grid0.Coords) :
    ∃ x : S256.Idx, cc0_transform_3 k0_off1_inb numel1_S1 pf i = ![((pf 0 : IVec S256 32) x).toNat, 0, 0] := ⟨_, rfl⟩

/-- The side condition at any contents whose table 0 holds words below 256 and table 1 words below 64. -/
theorem ok_of_lt (pf : pre0.Contents (Elt F)) (h0 : ∀ x : S256.Idx, ((pf 0 : IVec S256 32) x).toNat < 256)
    (h1 : ∀ x : S256.Idx, ((pf 1 : IVec S256 32) x).toNat < 64) : ok0 (F := F) pf := by
  refine ⟨fun i => ?_, fun i => ?_, fun i => ?_, fun i => ?_⟩
  · obtain ⟨x, e⟩ := transform_0_eq pf i
    have hx := h0 x
    refine ⟨fun a => ?_, Or.inl rfl⟩
    rw [e]
    fin_cases a <;> simp [S1x64x1024, S256x64x1024] <;> omega
  · obtain ⟨x, e⟩ := transform_1_eq pf i
    have hx := h1 x
    refine ⟨fun a => ?_, Or.inl rfl⟩
    rw [e]
    fin_cases a <;> simp [S1x1024x1024, S64x1024x1024] <;> omega
  · obtain ⟨x, e⟩ := transform_2_eq pf i
    have hx := h1 x
    refine ⟨fun a => ?_, Or.inl rfl⟩
    rw [e]
    fin_cases a <;> simp [S1x1x1024, S64x1x1024] <;> omega
  · obtain ⟨x, e⟩ := transform_3_eq pf i
    have hx := h0 x
    refine ⟨fun a => ?_, Or.inl rfl⟩
    rw [e]
    fin_cases a <;> simp [S1x64x1024, S256x64x1024] <;> omega

/-- THE SIDE CONDITION of the tables holds of every launch memory. -/
theorem ok : Ok m :=
  ok_of_lt (tbl m) (fun x => by rw [tbl0_eq]; exact permv_lt _ _) (fun x => by rw [tbl1_eq]; exact sidv_lt _ _)

end Cert.Kernel.Tables

end
-- ==== Proof.BodyValue.lean ====
/-
  What the kernel body computes at one grid point, as a value.

  The body loads the sample's block `x0 : [1, 64, 1024]`, the selected matrix `x1 : [1, 1024, 1024]` and the selected bias
  row `x2 : [1, 1, 1024]`, and stores ONE block `[1, 64, 1024]` that covers the output's staging buffer. The run found that
  store as its one piece, so what the buffer holds after the body is the store's payload (`out_pay`, at any float instance).
  At the exact instance a change of format is the identity and the matrix unit's product into a zero accumulator is the sum
  over the contracted axis, so the payload at `(0, s, h)` is `Σ_d x0[0, s, d] · x1[0, d, h] + x2[0, 0, h]` (`pay_apply`).
-/
import proofs.«424918_j82471962017991_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open scoped BigOperators

variable {F : FTy → Type} [FloatOps F]

theorem hz3 : (![0, 0, 0] : Fin 3 → Nat) = fun _ => 0 := funext fun a => by fin_cases a <;> rfl

/-- The output's staging buffer after the body holds the one store's payload. -/
theorem out_pay (c : Dev nD) (i : grid0.Coords) (arg3 : Memref sig .tc .vmem S1x64x1024 .f32) (harg3 : arg3.IsWhole)
    (arg4 : Memref sig .tc .vmem S1x1024x1024 .f32) (harg4 : arg4.IsWhole) (arg5 : Memref sig .tc .vmem S1x1x1024 .f32)
    (harg5 : arg5.IsWhole) (arg6 : Memref sig .tc .vmem S1x64x1024 .f32) (harg6 : arg6.IsWhole)
    (x0 : Vec F S1x64x1024 .f32) (x1 : Vec F S1x1024x1024 .f32) (x2 : Vec F S1x1x1024 .f32)
    (xt0 : TbBuf0 (F := F) c tbM0_0) (xt1 : TbBuf0 (F := F) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c i arg3 harg3 arg4 harg4 arg5 harg5 arg6 harg6 x0 x1 x2 xt0 xt1)]
  unfold kernelRun0_A
  dsimp only
  sl_unfold_words
  rw [View.canon_unit_zero hz3]
  simp only [View.readAt_eq_ld, harg3.read_unread, harg4.read_unread, harg5.read_unread,
    View.ld_unit_zero (S := S1x64x1024) hz3, View.ld_unit_zero (S := S1x1024x1024) hz3, View.ld_unit_zero (S := S1x1x1024) hz3]

/-! ## The matrix product's operand indices -/

theorem lhs_mm_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide),
    dif_pos (show (0 : Fin S64x1024.rank) ∈ dot_S64x1024_S1024x1024_S64x1024_1_0_0_1_n_n.lhsNonContracting by decide)]
  rfl
theorem lhs_mm_1 (i : S64x1024.Idx) (q : dot_S64x1024_S1024x1024_S64x1024_1_0_0_1_n_n.contr.Idx) :
    (dot_S64x1024_S1024x1024_S64x1024_1_0_0_1_n_n.lhsIdx i q 1).val = (q ⟨0, by decide⟩).val :=
  dot_S64x1024_S1024x1024_S64x1024_1_0_0_1_n_n.lhsIdx_val_of_single rfl i q
theorem rhs_mm_0 (i : S64x1024.Idx) (q : dot_S64x1024_S1024x1024_S64x1024_1_0_0_1_n_n.contr.Idx) :
    (dot_S64x1024_S1024x1024_S64x1024_1_0_0_1_n_n.rhsIdx i q 0).val = (q ⟨0, by decide⟩).val :=
  dot_S64x1024_S1024x1024_S64x1024_1_0_0_1_n_n.rhsIdx_val_of_single rfl i q
theorem rhs_mm_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide),
    dif_pos (show (1 : Fin S1024x1024.rank) ∈ dot_S64x1024_S1024x1024_S64x1024_1_0_0_1_n_n.rhsNonContracting by decide)]
  rfl

/-- The matrix unit's product into the zero accumulator, at `(s, h)`: the sum over the contracted axis. -/
theorem mm_apply (l : FVec Ideal S64x1024 .bf16) (r : FVec Ideal S1024x1024 .bf16) (s : Fin 64) (h : Fin 1024) :
    matmul dot_S64x1024_S1024x1024_S64x1024_1_0_0_1_n_n none l r (constant S64x1024 .f32 0x00000000#32) (ix2 s h)
      = ∑ k : Fin 1024, l (ix2 s k) * r (ix2 k h) := by
  refine (Ideal.matmul_constant_zero_apply dot_S64x1024_S1024x1024_S64x1024_1_0_0_1_n_n none l r (ix2 s h)).trans ?_
  rw [← Equiv.sum_comp (ValueIdx.contrEquiv1 dot_S64x1024_S1024x1024_S64x1024_1_0_0_1_n_n 1024 rfl rfl).symm]
  refine Finset.sum_congr rfl fun k _ => ?_
  have hk := ValueIdx.contrEquiv1_symm_val dot_S64x1024_S1024x1024_S64x1024_1_0_0_1_n_n 1024 rfl rfl k
  have el : dot_S64x1024_S1024x1024_S64x1024_1_0_0_1_n_n.lhsIdx (ix2 s h) ((ValueIdx.contrEquiv1 dot_S64x1024_S1024x1024_S64x1024_1_0_0_1_n_n 1024 rfl rfl).symm k) = ix2 s k :=
    funext fun a => Fin.ext (by
      match a with
      | ⟨0, _⟩ => exact lhs_mm_0 _ _
      | ⟨1, _⟩ => exact (lhs_mm_1 _ _).trans hk)
  have er : dot_S64x1024_S1024x1024_S64x1024_1_0_0_1_n_n.rhsIdx (ix2 s h) ((ValueIdx.contrEquiv1 dot_S64x1024_S1024x1024_S64x1024_1_0_0_1_n_n 1024 rfl rfl).symm k) = ix2 k h :=
    funext fun a => Fin.ext (by
      match a with
      | ⟨0, _⟩ => exact (rhs_mm_0 _ _).trans hk
      | ⟨1, _⟩ => exact rhs_mm_1 _ _)
  rw [el, er]

/-- THE PAYLOAD AT AN INDEX, at the exact instance: row `s` of the sample's block against column `h` of the selected matrix,
    plus the selected bias at `h`. -/
theorem pay_apply (x0 : Vec Ideal S1x64x1024 .f32) (x1 : Vec Ideal S1x1024x1024 .f32) (x2 : Vec Ideal S1x1x1024 .f32)
    (u : Fin 1) (s : Fin 64) (h : Fin 1024) :
    k0_pay1 (F := Ideal) x0 x1 x2 (ix3 u s h)
      = (∑ k : Fin 1024, x0 (ix3 (0 : Fin 1) s k) * x1 (ix3 (0 : Fin 1) k h)) + x2 (ix3 (0 : Fin 1) (0 : Fin 1) h) := by
  unfold k0_pay1
  refine (shapeCast_ab_1ab_apply _ shapeCasts_S64x1024_S1x64x1024 u s h).trans ?_
  refine (addf_apply _ _ (ix2 s h)).trans ?_
  refine congrArg₂ (· + ·) ?_ ?_
  · refine (mm_apply _ _ s h).trans ?_
    refine Finset.sum_congr rfl fun k _ => ?_
    refine congrArg₂ (· * ·) ?_ ?_
    · exact (truncf_apply _ bitsLt_bf16_f32 (ix2 s k)).trans (shapeCast_1ab_ab_apply x0 shapeCasts_S1x64x1024_S64x1024 s k)
    · exact (truncf_apply _ bitsLt_bf16_f32 (ix2 k h)).trans (shapeCast_1ab_ab_apply x1 shapeCasts_S1x1024x1024_S1024x1024 k h)
  · refine (broadcastTo_1b_ab_apply _ broadcasts_S1x1024_S64x1024 s h).trans ?_
    exact shapeCast_1ab_ab_apply x2 shapeCasts_S1x1x1024_S1x1024 (0 : Fin 1) h

end Cert.KernelIdeal.Body

end
-- ==== Proof.Spec.lean ====
/-
  The specification both programs meet: a category-specific linear layer.

  For sample `j`, with `e j` the category selected for it, row `s` and output column `h`:

      out[j, s, h] = Σ_d x[j, s, d] · W[e j, d, h] + b[e j, h]

  over the extended reals. The kernel and the reference differ in how they arrive at `e` and in which order they visit the
  samples; given the same selector they are this one function of the arguments.
-/
import Idealize.ShloMosaic.PureOps.Ideal
import Idealize.ShloMosaic.Lib.ValueIdx

noncomputable section

namespace Cert.RoutedLinear

open Idealize.ShloMosaic Idealize.ShloMosaic.ValueIdx
open scoped BigOperators

/-- One entry of the layer's output: sample `j`'s row `s` against the selected matrix's column `h`, plus the selected bias. -/
def entry (e : Fin 256 → Fin 64) (x : (⟨3, ![256, 64, 1024]⟩ : Shape).Idx → EReal)
    (W : (⟨3, ![64, 1024, 1024]⟩ : Shape).Idx → EReal) (b : (⟨2, ![64, 1024]⟩ : Shape).Idx → EReal)
    (j : Fin 256) (s : Fin 64) (h : Fin 1024) : EReal :=
  (∑ d : Fin 1024, x (ix3 j s d) * W (ix3 (e j) d h)) + b (ix2 (e j) h)

/-- The layer's output as one array. -/
def G (e : Fin 256 → Fin 64) (x : (⟨3, ![256, 64, 1024]⟩ : Shape).Idx → EReal)
    (W : (⟨3, ![64, 1024, 1024]⟩ : Shape).Idx → EReal) (b : (⟨2, ![64, 1024]⟩ : Shape).Idx → EReal) :
    (⟨3, ![256, 64, 1024]⟩ : Shape).Idx → EReal :=
  fun i => entry e x W b ⟨(i 0).val, (i 0).isLt⟩ ⟨(i 1).val, (i 1).isLt⟩ ⟨(i 2).val, (i 2).isLt⟩

theorem G_ix3 (e : Fin 256 → Fin 64) (x : (⟨3, ![256, 64, 1024]⟩ : Shape).Idx → EReal)
    (W : (⟨3, ![64, 1024, 1024]⟩ : Shape).Idx → EReal) (b : (⟨2, ![64, 1024]⟩ : Shape).Idx → EReal)
    (j : Fin 256) (s : Fin 64) (h : Fin 1024) : G e x W b (ix3 j s h) = entry e x W b j s h := rfl

end Cert.RoutedLinear

end
-- ==== Proof.BlocksToArray.lean ====
/-
  From what each grid point writes back to the whole output array, for ANY contents of the two tables that have the
  shape the host gives them.

  The pipeline is taken at admissible table contents `a` that are a VARIABLE here: table 0 at the position grid point `t`
  reads is sample `σ t`, table 1 there is category `e (σ t)`, with `σ` a bijection of the 256 points onto the 256
  samples. At point `t` the three input windows then hold sample `σ t`'s block of `x`, matrix `e (σ t)` and bias row
  `e (σ t)`; the body's payload of them (Proof/BodyValue.lean) is, index by index, block `σ t` of the specification
  `G e x W b` (Proof/Spec.lean), which is where the output window writes it (`flushed_eq`). Two neighbouring points work
  on different samples (`σ` injective), so every point writes its block back (`flush_true`); every sample is some
  point's (`σ` surjective), so the written blocks cover the output array (`cover`); hence the array ends holding
  `G e x W b` (`arrAt_eq`).
-/
import proofs.«424918_j82471962017991_2_alg».proof.Proof.Gen.KernelIdeal.Frame
import proofs.«424918_j82471962017991_2_alg».proof.Proof.BodyValue
import proofs.«424918_j82471962017991_2_alg».proof.Proof.Spec
import Idealize.ShloMosaic.Lib.Pipeline.Value
import Idealize.ShloMosaic.Lib.ValueIdx

set_option maxRecDepth 16384

noncomputable section

namespace Cert.KernelIdeal.Routed

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)
open Cert.RoutedLinear
open scoped BigOperators

/-- The table position that the index maps read at grid coordinates `i`. -/
def pos (i : grid0.Coords) : S256.Idx :=
  (Rect.unit (s := S256) (k0_off1 i) S1.size (k0_off1_inb i)).emb (Shape.Idx.first (numel1_S1.symm ▸ Nat.one_pos))

/-- The index maps at any contents: block (table word at the point's position, 0, 0). -/
theorem tr0 (pf : pre0.Contents (Elt Ideal)) (i : grid0.Coords) :
    cc0_transform_0 k0_off1_inb numel1_S1 pf i = ![((pf 0 : IVec S256 32) (pos i)).toNat, 0, 0] := rfl
theorem tr1 (pf : pre0.Contents (Elt Ideal)) (i : grid0.Coords) :
    cc0_transform_1 k0_off1_inb numel1_S1 pf i = ![((pf 1 : IVec S256 32) (pos i)).toNat, 0, 0] := rfl
theorem tr2 (pf : pre0.Contents (Elt Ideal)) (i : grid0.Coords) :
    cc0_transform_2 k0_off1_inb numel1_S1 pf i = ![((pf 1 : IVec S256 32) (pos i)).toNat, 0, 0] := rfl
theorem tr3 (pf : pre0.Contents (Elt Ideal)) (i : grid0.Coords) :
    cc0_transform_3 k0_off1_inb numel1_S1 pf i = ![((pf 0 : IVec S256 32) (pos i)).toNat, 0, 0] := rfl

/-- Grid point `t` reads the tables at position `t`. -/
theorem pos_coords : ∀ t : Fin grid0.N, (pos (grid0.coords t) 0).val = t.val := by decide +kernel

section
variable (a : (pcfg0 (F := Ideal)).Adm) {c : Dev nD}
variable (X : S256x64x1024.Idx → EReal) (Wt : S64x1024x1024.Idx → EReal) (B3 : S64x1x1024.Idx → EReal)

/-- The first table's word at point `t`, and the second's, at contents `pf`. -/
abbrev w0 (pf : pre0.Contents (Elt Ideal)) (t : Fin grid0.N) : Nat := ((pf 0 : IVec S256 32) (pos (grid0.coords t))).toNat
abbrev w1 (pf : pre0.Contents (Elt Ideal)) (t : Fin grid0.N) : Nat := ((pf 1 : IVec S256 32) (pos (grid0.coords t))).toNat

-- the tables' contents the pipeline is taken at, named apart from `a` so that a fact about them never mentions `a`
variable (pf : pre0.Contents (Elt Ideal)) (hpf : a.1 = pf)
include hpf

/-- The sample window at point `t` holds the block of sample `w0 t`. -/
theorem read0 (t : Fin (cfg0 a).N) (p : Fin 256) (hp : w0 pf t = p.val) (u : Fin 1) (s : Fin 64) (k : Fin 1024) :
    (((cfg0 a).win 0).blk t).view.read (Elt Ideal) X (ix3 u s k) = X (ix3 p s k) := by
  subst hpf
  show X ((((cfg0 a).win 0).blk t).view.emb (ix3 u s k)) = X (ix3 p s k)
  refine congrArg X (funext fun ax => Fin.ext ?_)
  have hu : u.val = 0 := by omega
  match ax with
  | ⟨0, _⟩ =>
    show w0 a.1 t * 1 + 1 * u.val = p.val; omega
  | ⟨1, _⟩ =>
    show 0 * 64 + 1 * s.val = s.val; omega
  | ⟨2, _⟩ =>
    show 0 * 1024 + 1 * k.val = k.val; omega

/-- The matrix window at point `t` holds matrix `w1 t`. -/
theorem read1 (t : Fin (cfg0 a).N) (q : Fin 64) (hq : w1 pf t = q.val) (u : Fin 1) (k h : Fin 1024) :
    (((cfg0 a).win 1).blk t).view.read (Elt Ideal) Wt (ix3 u k h) = Wt (ix3 q k h) := by
  subst hpf
  show Wt ((((cfg0 a).win 1).blk t).view.emb (ix3 u k h)) = Wt (ix3 q k h)
  refine congrArg Wt (funext fun ax => Fin.ext ?_)
  have hu : u.val = 0 := by omega
  match ax with
  | ⟨0, _⟩ =>
    show w1 a.1 t * 1 + 1 * u.val = q.val; omega
  | ⟨1, _⟩ =>
    show 0 * 1024 + 1 * k.val = k.val; omega
  | ⟨2, _⟩ =>
    show 0 * 1024 + 1 * h.val = h.val; omega

/-- The bias window at point `t` holds bias row `w1 t`. -/
theorem read2 (t : Fin (cfg0 a).N) (q : Fin 64) (hq : w1 pf t = q.val) (u v : Fin 1) (h : Fin 1024) :
    (((cfg0 a).win 2).blk t).view.read (Elt Ideal) B3 (ix3 u v h) = B3 (ix3 q (0 : Fin 1) h) := by
  subst hpf
  show B3 ((((cfg0 a).win 2).blk t).view.emb (ix3 u v h)) = B3 (ix3 q (0 : Fin 1) h)
  refine congrArg B3 (funext fun ax => Fin.ext ?_)
  have hu : u.val = 0 := by omega
  have hv : v.val = 0 := by omega
  match ax with
  | ⟨0, _⟩ =>
    show w1 a.1 t * 1 + 1 * u.val = q.val; omega
  | ⟨1, _⟩ =>
    show 0 * 1 + 1 * v.val = 0; omega
  | ⟨2, _⟩ =>
    show 0 * 1024 + 1 * h.val = h.val; omega

variable (dat : Dat τ (Elt Ideal) Unit ℕ (UR sig nD τ) ℕ (cfg0 a) c)
variable (b : S64x1024.Idx → EReal) (σ : Fin (cfg0 a).N → Fin 256) (e : Fin 256 → Fin 64)

/-- The output window's block at point `t`, index by index: block `σ t` of the array. -/
theorem emb3 (h0 : ∀ t, w0 pf t = (σ t).val) (t : Fin (cfg0 a).N) (u : Fin 1) (s : Fin 64) (h : Fin 1024) :
    (((cfg0 a).win 3).blk t).view.emb (ix3 u s h) = ix3 (σ t) s h := by
  subst hpf
  exact funext fun ax => Fin.ext (by
    have hu : u.val = 0 := by omega
    match ax with
    | ⟨0, _⟩ => show w0 a.1 t * 1 + 1 * u.val = (σ t).val; rw [h0 t]; omega
    | ⟨1, _⟩ => show 0 * 64 + 1 * s.val = s.val; omega
    | ⟨2, _⟩ => show 0 * 1024 + 1 * h.val = h.val; omega)

/-- The specification read through the output window's block at point `t`: its entries for sample `σ t`. -/
theorem read3 (h0 : ∀ t, w0 pf t = (σ t).val) (t : Fin (cfg0 a).N) (u : Fin 1) (s : Fin 64) (h : Fin 1024) :
    (((cfg0 a).win 3).blk t).view.read (Elt Ideal) (G e X Wt b) (ix3 u s h) = entry e X Wt b (σ t) s h := by
  show G e X Wt b ((((cfg0 a).win 3).blk t).view.emb (ix3 u s h)) = _
  rw [emb3 a pf hpf σ h0 t u s h, G_ix3]

/-- WHAT POINT `t` WRITES BACK is block `σ t` of the specification. -/
theorem flushed_eq
    (hafter : ∀ t, dat.after 3 t = k0_pay1 (F := Ideal) ((((cfg0 a).win 0).blk t).view.read (Elt Ideal) X)
      ((((cfg0 a).win 1).blk t).view.read (Elt Ideal) Wt) ((((cfg0 a).win 2).blk t).view.read (Elt Ideal) B3))
    (hB : ∀ (q : Fin 64) (h : Fin 1024), B3 (ix3 q (0 : Fin 1) h) = b (ix2 q h))
    (h0 : ∀ t, w0 pf t = (σ t).val) (h1 : ∀ t, w1 pf t = (e (σ t)).val) (t : Fin (cfg0 a).N) :
    dat.flushed 3 t = (((cfg0 a).win 3).blk t).view.read (Elt Ideal) (G e X Wt b) := by
  refine funext fun (y : S1x64x1024.Idx) => ?_
  obtain ⟨u, s, h, rfl⟩ : ∃ (u : Fin 1) (s : Fin 64) (h : Fin 1024), y = ix3 u s h := ⟨y 0, y 1, y 2, eq_ix3 y⟩
  have hx : ((cfg0 a).win 3).xinj (grid0.coords t) (ix3 u s h) = ix3 u s h :=
    funext fun ax => Fin.ext (by
      match ax with
      | ⟨0, _⟩ => rfl
      | ⟨1, _⟩ => rfl
      | ⟨2, _⟩ => rfl)
  show dat.after 3 t (((cfg0 a).win 3).xinj (grid0.coords t) (ix3 u s h)) = _
  rw [hx, hafter t]
  refine Eq.trans ?_ (read3 a X Wt pf hpf b σ e h0 t u s h).symm
  refine (pay_apply _ _ _ _ _ _).trans ?_
  unfold entry
  refine congrArg₂ (· + ·) (Finset.sum_congr rfl fun k _ => congrArg₂ (· * ·) ?_ ?_) ?_
  · exact read0 a X pf hpf t (σ t) (h0 t) _ _ _
  · exact read1 a Wt pf hpf t (e (σ t)) (h1 t) _ _ _
  · exact (read2 a B3 pf hpf t (e (σ t)) (h1 t) _ _ _).trans (hB _ _)

/-- Neighbouring points work on different samples, so every point writes its block back. -/
theorem flush_true (hσ : Function.Injective σ) (h0 : ∀ t, w0 pf t = (σ t).val) (t : Fin (cfg0 a).N) :
    ((cfg0 a).win 3).flush t = true := by
  subst hpf
  have hN : (cfg0 a).N = (cfg0 a).grid.N := rfl
  unfold Pipeline.Window.flush
  have hout : ((cfg0 a).win 3).isOut = true := rfl
  rw [hout, Bool.true_and, Bool.or_eq_true, decide_eq_true_eq, decide_eq_true_eq]
  by_cases hl : t.val + 1 = (cfg0 a).grid.N
  · exact Or.inl hl
  · have hlt : t.val + 1 < (cfg0 a).grid.N := by have := t.isLt; omega
    refine Or.inr ⟨hlt, fun hidx => ?_⟩
    have e0 := congrFun hidx (⟨0, by decide⟩ : Fin 3)
    have e1 : w0 a.1 ⟨t.val + 1, hlt⟩ = w0 a.1 t := e0
    rw [h0, h0] at e1
    have := congrArg Fin.val (hσ (Fin.ext e1))
    simp at this

/-- Every sample is some point's, so the blocks written back cover the output array. -/
theorem cover (hσs : Function.Surjective σ) (hσ : Function.Injective σ) (h0 : ∀ t, w0 pf t = (σ t).val)
    (i : S256x64x1024.Idx) : ∃ t : Fin (cfg0 a).N, ((cfg0 a).win 3).flush t = true ∧ i ∈ (((cfg0 a).win 3).blk t).view.set := by
  obtain ⟨j, s, h, rfl⟩ : ∃ (j : Fin 256) (s : Fin 64) (h : Fin 1024), i = ix3 j s h := ⟨i 0, i 1, i 2, eq_ix3 i⟩
  obtain ⟨t, rfl⟩ := hσs j
  refine ⟨t, flush_true a pf hpf σ hσ h0 t, ?_⟩
  rw [← emb3 a pf hpf σ h0 t (0 : Fin 1) s h]
  exact (((cfg0 a).win 3).blk t).view.emb_mem_set _

/-- THE OUTPUT ARRAY after the run is the specification. -/
theorem arrAt_eq
    (hafter : ∀ t, dat.after 3 t = k0_pay1 (F := Ideal) ((((cfg0 a).win 0).blk t).view.read (Elt Ideal) X)
      ((((cfg0 a).win 1).blk t).view.read (Elt Ideal) Wt) ((((cfg0 a).win 2).blk t).view.read (Elt Ideal) B3))
    (hB : ∀ (q : Fin 64) (h : Fin 1024), B3 (ix3 q (0 : Fin 1) h) = b (ix2 q h))
    (hσ : Function.Injective σ) (hσs : Function.Surjective σ)
    (h0 : ∀ t, w0 pf t = (σ t).val) (h1 : ∀ t, w1 pf t = (e (σ t)).val) :
    dat.arrAt 3 (cfg0 a).N = G e X Wt b :=
  dat.arrAt_eq_of_cover 3 (G e X Wt b) (fun t _ => flushed_eq a X Wt B3 pf hpf dat b σ e hafter hB h0 h1 t)
    (cover a pf hpf σ hσs hσ h0)

end

end Cert.KernelIdeal.Routed

end
-- ==== Proof.TablesIdeal.lean ====
/-
  The two integer tables the kernel's index maps read, as functions of the category ids, and the side condition
  of the tables under which the kernel's run is stated.

  The host part of the program clamps the ids into [0, 63] (`clipv`), sorts the positions 0 … 255 stably by the
  clamped id (`permv`: the sorted positions, an argsort), and takes the clamped ids at the sorted positions
  (`sidv`). Table 0 is `permv`, table 1 is `sidv`. Every entry of `permv` is a position, so it is below 256; every
  entry of `sidv` is one of the clamped ids, so it is below 64. Hence at every grid point the block of the
  [256, 64, 1024] arrays named by table 0 and the block of the [64, …] arrays named by table 1 lie inside their
  arrays, whatever the ids are: the side condition holds of every launch memory.
-/
import proofs.«424918_j82471962017991_2_alg».proof.Proof.Gen.KernelIdeal.Frame
import proofs.«424918_j82471962017991_2_alg».proof.Proof.LibWords
import Idealize.ShloMosaic.Lib.StableHlo.Run
import Idealize.ShloMosaic.Lib.Pipeline.Value

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo
open Cert.WordsLib

variable {F : FTy → Type} [FloatOps F]

/-- The ids clamped into [0, 63], as the host computes them: `min 63 (max 0 id)`, signed. -/
def clipv (cat : IVec S256 32) : IVec S256 32 :=
  minsi (broadcastInDim S256 ![] bcast_S_S256 (constantI S_ 32 63#32))
    (maxsi (broadcastInDim S256 ![] bcast_S_S256 (constantI S_ 32 0#32)) cat)

/-- The positions sorted stably by clamped id. -/
def permv (cat : IVec S256 32) : IVec S256 32 :=
  (Host.sort2 S256 0 comparator_i32_i32_d0 (clipv cat) (iotaInDim S256 32 0)).2

/-- The start indices of the take: a negative sorted position wrapped by 256 (none is negative), as a column. -/
def takeIdx (cat : IVec S256 32) : IVec S256x1 32 :=
  broadcastInDim S256x1 ![0] bcast_S256_S256x1_0
    (select (cmpi .slt (permv cat) (broadcastInDim S256 ![] bcast_S_S256 (constantI S_ 32 0#32)))
      (addi (permv cat) (broadcastInDim S256 ![] bcast_S_S256 (constantI S_ 32 256#32))) (permv cat))

/-- The clamped ids at the sorted positions. -/
def sidv (cat : IVec S256 32) : IVec S256 32 :=
  Host.gather gather_S256_S256x1_S256_n_0_n_n_0_1_1 (clipv cat) (takeIdx cat)

/-- A clamped id is the word clamp of the id. -/
theorem clipv_apply (cat : IVec S256 32) (i : S256.Idx) : clipv cat i = clip63 (cat i) := by
  unfold clipv clip63 minsi maxsi
  rw [broadcastInDim_apply _ bcast_S_S256 _ i (fun a => a.elim0) (fun a => a.elim0),
    broadcastInDim_apply _ bcast_S_S256 _ i (fun a => a.elim0) (fun a => a.elim0)]
  rfl

theorem clipv_lt (cat : IVec S256 32) (i : S256.Idx) : (clipv cat i).toNat < 64 := by
  rw [clipv_apply]; exact clip63_toNat_lt _

/-- The sorting permutation of the positions by clamped id. -/
def sigma (cat : IVec S256 32) : Fin 256 → Fin 256 :=
  sortPerm comparator_i32_i32_d0 (clipv cat) (iotaInDim S256 32 0)

theorem sigma_injective (cat : IVec S256 32) : Function.Injective (sigma cat) := sortPerm_injective _ _ _
theorem sigma_surjective (cat : IVec S256 32) : Function.Surjective (sigma cat) := sortPerm_surjective _ _ _

/-- Sorted position `k` holds the position `sigma cat k`, as a word. -/
theorem permv_apply (cat : IVec S256 32) (i : S256.Idx) : permv cat i = BitVec.ofNat 32 (sigma cat (i 0)).val := by
  unfold permv sigma
  exact argsort_rank1 comparator_i32_i32_d0 (clipv cat) i

theorem permv_toNat (cat : IVec S256 32) (i : S256.Idx) : (permv cat i).toNat = (sigma cat (i 0)).val := by
  rw [permv_apply, BitVec.toNat_ofNat]
  have := (sigma cat (i 0)).isLt
  omega

theorem permv_lt (cat : IVec S256 32) (i : S256.Idx) : (permv cat i).toNat < 256 := by
  rw [permv_toNat]; exact (sigma cat (i 0)).isLt

theorem sidv_lt (cat : IVec S256 32) (i : S256.Idx) : (sidv cat i).toNat < 64 := by
  unfold sidv Host.gather
  exact clipv_lt _ _

variable (m : (ℓ : Loc nD τ sig) → Buf (Elt F) ℓ)

/-- The ids the program was launched with (device 0's: the program runs on one device). -/
abbrev cat0 : IVec S256 32 := m (((0 : Dev nD) : Thread nD τ).loc main_arg1)

/-- Table 0 is the argsort of the clamped ids. -/
theorem tbl0_eq : (tbl m 0 : IVec S256 32) = permv (cat0 m) := by
  unfold tbl
  show V m 0 main_v1 = _
  dsimp only [V]
  simp only [hostOps0, hostOps0_1, hostOps0_2, hostOps0_3, List.flatten_cons, List.flatten_nil, List.append_nil,
    List.cons_append, List.nil_append]
  after_results
  rfl

/-- Table 1 is the clamped ids taken at the sorted positions. -/
theorem tbl1_eq : (tbl m 1 : IVec S256 32) = sidv (cat0 m) := by
  unfold tbl
  show V m 0 main_v8 = _
  dsimp only [V]
  simp only [hostOps0, hostOps0_1, hostOps0_2, hostOps0_3, List.flatten_cons, List.flatten_nil, List.append_nil,
    List.cons_append, List.nil_append]
  after_results_simp
  rfl

/-- The index maps at any contents of the tables: block (table word at some position, 0, 0). -/
theorem transform_0_eq (pf : pre0.Contents (Elt F)) (i : grid0.Coords) :
    ∃ x : S256.Idx, cc0_transform_0 k0_off1_inb numel1_S1 pf i = ![((pf 0 : IVec S256 32) x).toNat, 0, 0] := ⟨_, rfl⟩
theorem transform_1_eq (pf : pre0.Contents (Elt F)) (i : grid0.Coords) :
    ∃ x : S256.Idx, cc0_transform_1 k0_off1_inb numel1_S1 pf i = ![((pf 1 : IVec S256 32) x).toNat, 0, 0] := ⟨_, rfl⟩
theorem transform_2_eq (pf : pre0.Contents (Elt F)) (i : grid0.Coords) :
    ∃ x : S256.Idx, cc0_transform_2 k0_off1_inb numel1_S1 pf i = ![((pf 1 : IVec S256 32) x).toNat, 0, 0] := ⟨_, rfl⟩
theorem transform_3_eq (pf : pre0.Contents (Elt F)) (i : grid0.Coords) :
    ∃ x : S256.Idx, cc0_transform_3 k0_off1_inb numel1_S1 pf i = ![((pf 0 : IVec S256 32) x).toNat, 0, 0] := ⟨_, rfl⟩

/-- The side condition at any contents whose table 0 holds words below 256 and table 1 words below 64. -/
theorem ok_of_lt (pf : pre0.Contents (Elt F)) (h0 : ∀ x : S256.Idx, ((pf 0 : IVec S256 32) x).toNat < 256)
    (h1 : ∀ x : S256.Idx, ((pf 1 : IVec S256 32) x).toNat < 64) : ok0 (F := F) pf := by
  refine ⟨fun i => ?_, fun i => ?_, fun i => ?_, fun i => ?_⟩
  · obtain ⟨x, e⟩ := transform_0_eq pf i
    have hx := h0 x
    refine ⟨fun a => ?_, Or.inl rfl⟩
    rw [e]
    fin_cases a <;> simp [S1x64x1024, S256x64x1024] <;> omega
  · obtain ⟨x, e⟩ := transform_1_eq pf i
    have hx := h1 x
    refine ⟨fun a => ?_, Or.inl rfl⟩
    rw [e]
    fin_cases a <;> simp [S1x1024x1024, S64x1024x1024] <;> omega
  · obtain ⟨x, e⟩ := transform_2_eq pf i
    have hx := h1 x
    refine ⟨fun a => ?_, Or.inl rfl⟩
    rw [e]
    fin_cases a <;> simp [S1x1x1024, S64x1x1024] <;> omega
  · obtain ⟨x, e⟩ := transform_3_eq pf i
    have hx := h0 x
    refine ⟨fun a => ?_, Or.inl rfl⟩
    rw [e]
    fin_cases a <;> simp [S1x64x1024, S256x64x1024] <;> omega

/-- THE SIDE CONDITION of the tables holds of every launch memory. -/
theorem ok : Ok m :=
  ok_of_lt (tbl m) (fun x => by rw [tbl0_eq]; exact permv_lt _ _) (fun x => by rw [tbl1_eq]; exact sidv_lt _ _)

end Cert.KernelIdeal.Tables

end
-- ==== Proof.TableReads.lean ====
/-
  The two tables read at a position, exactly.

  With `σ` the stable sorting permutation of the positions by clamped id: table 0 at position `t` is `σ t` (as a word),
  and table 1 at `t` is the clamped id of sample `σ t`. The second is the take read at an index: its start index at row `t`
  is the sorted position `σ t` (jax's wrap of a negative index does nothing to it), the gather clamps it into [0, 255],
  where it already is, and reads the clamped ids there. So at grid point `t` the kernel works on sample `σ t` with the
  matrix and the bias of that sample's clamped category `sel (σ t)`.
-/
import proofs.«424918_j82471962017991_2_alg».proof.Proof.TablesIdeal
import Idealize.ShloMosaic.Lib.ValueIdx

set_option maxRecDepth 16384

noncomputable section

namespace Cert.KernelIdeal.Tables

open Cert.KernelIdeal Cert.KernelIdeal.Gen
open Idealize.ShloMosaic Idealize.ShloMosaic.TcCoe Idealize.SL.Sem Idealize.ShloMosaic.ValueIdx
open Cert.WordsLib

variable {F : FTy → Type} [FloatOps F]

/-- The take's start index at row `j` is the sorted position `j`. -/
theorem takeIdx_apply (cat : IVec S256 32) (j : Fin 256) : takeIdx cat (ix2 j (0 : Fin 1)) = permv cat (ix1 j) := by
  unfold takeIdx
  rw [broadcastInDim_apply _ bcast_S256_S256x1_0 _ (ix2 j (0 : Fin 1)) (ix1 j) (fun a => match a with
    | ⟨0, _⟩ => by show j.val = if (256 : Nat) = 1 then 0 else j.val; rw [if_neg (by decide)])]
  have hZ : (broadcastInDim S256 ![] bcast_S_S256 (constantI S_ 32 0#32) : IVec S256 32) (ix1 j) = 0#32 :=
    broadcastInDim_apply _ bcast_S_S256 _ (ix1 j) (fun a => a.elim0) (fun a => a.elim0)
  show Scalar.select (IntOp.cmpi .slt (permv cat (ix1 j)) ((broadcastInDim S256 ![] bcast_S_S256 (constantI S_ 32 0#32) : IVec S256 32) (ix1 j)))
    (IntOp.addi (permv cat (ix1 j)) _) (permv cat (ix1 j)) = _
  rw [hZ]
  exact select_wrap_of_nonneg _ _ (by have := permv_lt cat (ix1 j); omega)

/-- The clamped category of sample `j`. -/
def sel (cat : IVec S256 32) (j : Fin 256) : Fin 64 := ⟨(clipv cat (ix1 j)).toNat, clipv_lt _ _⟩

/-- Table 1's entry at position `t`: the clamped id of sample `σ t`. -/
theorem sidv_apply (cat : IVec S256 32) (t : Fin 256) : sidv cat (ix1 t) = clipv cat (ix1 (sigma cat t)) := by
  unfold sidv Host.gather
  refine congrArg (clipv cat) (funext fun a => Fin.ext ?_)
  obtain rfl : a = 0 := Subsingleton.elim _ _
  show gather_S256_S256x1_S256_n_0_n_n_0_1_1.start (ix1 t) (takeIdx cat) 0
    + gather_S256_S256x1_S256_n_0_n_n_0_1_1.batchCoord (ix1 t) 0
    + gather_S256_S256x1_S256_n_0_n_n_0_1_1.offCoord (ix1 t) 0 = (sigma cat t).val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S256_S256x1_S256_n_0_n_n_0_1_1.startIndexMap from List.mem_singleton.mpr rfl)]
  have hsi : gather_S256_S256x1_S256_n_0_n_n_0_1_1.siIdx (ix1 t)
      ⟨List.idxOf (0 : Fin 1) gather_S256_S256x1_S256_n_0_n_n_0_1_1.startIndexMap,
        List.idxOf_lt_length_iff.2 (List.mem_singleton.mpr rfl)⟩ = ix2 t (0 : Fin 1) := by
    funext b; refine Fin.ext ?_
    match b with
    | ⟨0, _⟩ => rfl
    | ⟨1, _⟩ => rfl
  rw [hsi, takeIdx_apply, toInt_toNat_of_lt _ (by have := permv_lt cat (ix1 t); omega), permv_toNat]
  have h := (sigma cat t).isLt
  show min (sigma cat t).val (256 - 1) = (sigma cat t).val
  omega

variable (m : (ℓ : Loc nD τ sig) → Buf (Elt F) ℓ)

/-- Table 0 at position `t`, as a natural number: sample `σ t`. -/
theorem tbl0_toNat (t : Fin 256) : ((tbl m 0 : IVec S256 32) (ix1 t)).toNat = (sigma (cat0 m) t).val := by
  rw [tbl0_eq]; exact permv_toNat _ _

/-- Table 1 at position `t`, as a natural number: the clamped category of sample `σ t`. -/
theorem tbl1_toNat (t : Fin 256) : ((tbl m 1 : IVec S256 32) (ix1 t)).toNat = (sel (cat0 m) (sigma (cat0 m) t)).val := by
  rw [tbl1_eq, sidv_apply]; rfl

end Cert.KernelIdeal.Tables

end
-- ==== Proof.KernelRun.lean ====
/-
  The kernel's run, with its result array named.

  The generic theorem of Proof/BlocksToArray.lean is taken at the tables the launch memory really holds: at grid point `t`
  table 0 names sample `σ t` and table 1 its clamped category (Proof/TableReads.lean), `σ` the stable sorting permutation
  of the positions by clamped id, a bijection. The three arrays the input windows stage are, as the region finds them, the
  samples `x`, the matrices `W`, and the bias `b` reshaped from [64, 1024] to [64, 1, 1024], whose entry `(q, 0, h)` is
  `b[q, h]`. So after every weakly fair execution the result array holds the specification at the kernel's selector
  `sel` (category = clamped id), and the four argument arrays are unchanged.
-/
import proofs.«424918_j82471962017991_2_alg».proof.Proof.BlocksToArray
import proofs.«424918_j82471962017991_2_alg».proof.Proof.TableReads
import Idealize.ShloMosaic.Lib.StableHlo.Run

set_option maxRecDepth 16384

noncomputable section

namespace Cert.KernelIdeal.Routed

open Cert.KernelIdeal Cert.KernelIdeal.Gen Cert.KernelIdeal.Body Cert.KernelIdeal.Tables
open Idealize.ShloMosaic Idealize.ShloMosaic.TcCoe Idealize.SL.Sem Idealize.ShloMosaic.ValueIdx Idealize.ShloMosaic.StableHlo
open Idealize.ShloMosaic.Pipeline (Dat)
open Cert.RoutedLinear

variable (m : (ℓ : Loc nD τ sig) → Buf (Elt Ideal) ℓ) (ρ : Dev nD → PrngReg)

theorem lt256 (t : Fin grid0.N) : t.val < 256 := by
  have := t.isLt
  have h : grid0.N = 256 := N_0
  omega

/-- The sample grid point `t` works on. -/
def sample (t : Fin grid0.N) : Fin 256 := sigma (cat0 m) ⟨t.val, lt256 t⟩

theorem sample_inj : Function.Injective (sample m) := fun t t' h => by
  have := sigma_injective (cat0 m) h
  exact Fin.ext (congrArg Fin.val this)

theorem sample_surj : Function.Surjective (sample m) := fun j => by
  obtain ⟨k, hk⟩ := sigma_surjective (cat0 m) j
  have h : grid0.N = 256 := N_0
  exact ⟨⟨k.val, by have := k.isLt; omega⟩, hk⟩

/-- Grid point `t` reads the tables at position `t`. -/
theorem pos_eq (t : Fin grid0.N) : pos (grid0.coords t) = ix1 ⟨t.val, lt256 t⟩ :=
  funext fun ax => Fin.ext (by
    obtain rfl : ax = 0 := Subsingleton.elim _ _
    exact pos_coords t)

theorem h0 (t : Fin grid0.N) : w0 (tbl m) t = (sample m t).val := by
  show ((tbl m 0 : IVec S256 32) (pos (grid0.coords t))).toNat = _
  rw [pos_eq t, tbl0_toNat]
  rfl

theorem h1 (t : Fin grid0.N) : w1 (tbl m) t = (sel (cat0 m) (sample m t)).val := by
  show ((tbl m 1 : IVec S256 32) (pos (grid0.coords t))).toNat = _
  rw [pos_eq t, tbl1_toNat]
  rfl

/-- The bias array as the region finds it: the argument reshaped to [64, 1, 1024]. -/
theorem V9_eq (c : Dev nD) : (V m c main_v9 : S64x1x1024.Idx → EReal)
    = shapeCast S64x1x1024 (m ((c : Thread nD τ).loc main_arg3) : S64x1024.Idx → EReal) shapeCasts_S64x1024_S64x1x1024 := by
  dsimp only [V]
  simp only [hostOps0, hostOps0_1, hostOps0_2, hostOps0_3, List.flatten_cons, List.flatten_nil, List.append_nil,
    List.cons_append, List.nil_append]
  after_results_simp
  rfl

theorem hB (c : Dev nD) (q : Fin 64) (h : Fin 1024) :
    (V m c main_v9 : S64x1x1024.Idx → EReal) (ix3 q (0 : Fin 1) h) = (m ((c : Thread nD τ).loc main_arg3) : S64x1024.Idx → EReal) (ix2 q h) := by
  rw [V9_eq]
  exact shapeCast_apply _ _ _ _ (by
    show ((⟨2, ![64, 1024]⟩ : Shape).rowMajor (ix2 q h)).val = ((⟨3, ![64, 1, 1024]⟩ : Shape).rowMajor (ix3 q (0 : Fin 1) h)).val
    rw [Shape.rowMajor_val_two, Shape.rowMajor_val_three]
    show q.val * 1024 + h.val = (q.val * 1 + 0) * 1024 + h.val
    omega)

/-- What the body leaves in the output's staging buffer at point `t`: the payload of the three input blocks. -/
theorem hafter (c : Dev nD) (t : Fin (cfgM m (ok m)).N) :
    (dats m (ok m) 0 c).after 3 t = k0_pay1 (F := Ideal)
      ((((cfg0 (adm m (ok m))).win 0).blk t).view.read (Elt Ideal) (V m c main_arg0))
      ((((cfg0 (adm m (ok m))).win 1).blk t).view.read (Elt Ideal) (V m c main_arg2))
      ((((cfg0 (adm m (ok m))).win 2).blk t).view.read (Elt Ideal) (V m c main_v9)) := by
  rw [after0_3]
  unfold outsAt0
  exact out_pay c (grid0.coords t) (ms0_0 m (ok m) t) (hs0_0 m (ok m) t) (ms0_1 m (ok m) t) (hs0_1 m (ok m) t)
    (ms0_2 m (ok m) t) (hs0_2 m (ok m) t) (ms0_3 m (ok m) t) (hs0_3 m (ok m) t)
    (iblk m (ok m) c 0 t) (iblk m (ok m) c 1 t) (iblk m (ok m) c 2 t) (tbl m 0) (tbl m 1)

/-- THE RESULT ARRAY after the run. -/
theorem final (c : Dev nD) : (dats m (ok m) 0 c).arrAt 3 (cfgM m (ok m)).N
    = G (sel (cat0 m)) (m ((c : Thread nD τ).loc main_arg0)) (m ((c : Thread nD τ).loc main_arg2)) (m ((c : Thread nD τ).loc main_arg3)) := by
  have h := arrAt_eq (adm m (ok m)) (V m c main_arg0) (V m c main_arg2) (V m c main_v9) (tbl m) rfl (dats m (ok m) 0 c)
    (m ((c : Thread nD τ).loc main_arg3)) (sample m) (sel (cat0 m)) (hafter m c) (hB m c) (sample_inj m) (sample_surj m) (h0 m) (h1 m)
  rw [V_main_arg0, V_main_arg2] at h
  exact h

/-- THE RUN, READ: every weakly fair execution terminates with the result array at the specification at the kernel's
    selector and the argument arrays unchanged. -/
theorem run : θ_run defs (onTc (τ := τ) (main (F := Ideal))) ⟨m, fun _ => 0, ρ⟩ (fun r => ∀ c : Dev nD,
      r.2.mem ((c.tc : Thread nD τ).loc main_v10)
        = G (sel (cat0 m)) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 3).trans (final m c),
      ((h c).1 0).trans (((dats m (ok m) 0 c).arrAt_in 0 rfl _).trans ((A_eq m (ok m) c 0).trans (V_main_arg0 m c))),
      ((h c).2 main_arg1 (by decide : main_arg1 ∈ Pipeline.restRefs sig spec0)).trans (V_main_arg1 m c),
      ((h c).1 1).trans (((dats m (ok m) 0 c).arrAt_in 1 rfl _).trans ((A_eq m (ok m) c 1).trans (V_main_arg2 m c))),
      ((h c).2 main_arg3 (by decide : main_arg3 ∈ Pipeline.restRefs sig spec0)).trans (V_main_arg3 m c)⟩)
    (run_main m ρ (ok m))

end Cert.KernelIdeal.Routed

end
-- ==== Proof.RefValue.lean ====
/-
  The reference's result is the specification at the reference's own selector.

  The reference selects, for sample `j`, the category `rsel j`: the id wrapped by 64 if negative (numpy's negative
  indexing) and then clamped into [0, 63] by the gather. It gathers the 256 selected matrices and bias rows, multiplies
  each sample's [64, 1024] block by its matrix (a batched product, one contracted axis) and adds the bias row to every
  row. Read at `(j, s, h)` that is `Σ_d x[j, s, d] · W[rsel j, d, h] + b[rsel j, h]`.

  The two gathers are read by hand (the operand index of a take along axis 0: the clamped start on axis 0, the result's own
  coordinates on the other axes); the other operations are read by the generated one-operation lemmas.
-/
import proofs.«424918_j82471962017991_2_alg».proof.Proof.Gen.ReferenceIdeal.Read
import proofs.«424918_j82471962017991_2_alg».proof.Proof.Spec
import proofs.«424918_j82471962017991_2_alg».proof.Proof.LibWords

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.WordsLib Cert.RoutedLinear
open scoped BigOperators

/-- The id of sample `j` as the reference indexes with it: wrapped by 64 if negative. -/
def wrapped (x1 : IVec S256 32) (j : Fin 256) : BitVec 32 := val_main_v4 (F := Ideal) x1 (ix1 j)

/-- The category the reference selects for sample `j`: the wrapped id, clamped into [0, 63] by the gather. -/
def rsel (x1 : IVec S256 32) (j : Fin 256) : Fin 64 := ⟨min (wrapped x1 j).toInt.toNat 63, by omega⟩

/-! ## The two gathers' operand indices, axis by axis -/

theorem opW_0 (idx : IVec S256x1 32) (j : Fin 256) (k h : Fin 1024) :
    gather_S64x1024x1024_S256x1_S256x1024x1024_12_0_n_n_0_1_110241024.start (ix3 j k h) idx (0 : Fin S64x1024x1024.rank)
      + gather_S64x1024x1024_S256x1_S256x1024x1024_12_0_n_n_0_1_110241024.batchCoord (ix3 j k h) (0 : Fin S64x1024x1024.rank)
      + gather_S64x1024x1024_S256x1_S256x1024x1024_12_0_n_n_0_1_110241024.offCoord (ix3 j k h) (0 : Fin S64x1024x1024.rank)
      = min (idx (ix2 j (0 : Fin 1))).toInt.toNat 63 := by
  rw [GatherDims.batchCoord_eq_zero _ _ _ List.not_mem_nil, Nat.add_zero,
    GatherDims.offCoord_eq_zero _ _ _ (fun hm => ((GatherDims.mem_sKept _ _).mp hm).1 (List.mem_singleton.mpr rfl)), Nat.add_zero]
  unfold GatherDims.start
  rw [dif_pos (show (0 : Fin S64x1024x1024.rank) ∈ gather_S64x1024x1024_S256x1_S256x1024x1024_12_0_n_n_0_1_110241024.startIndexMap from List.mem_singleton.mpr rfl)]
  have hsi : gather_S64x1024x1024_S256x1_S256x1024x1024_12_0_n_n_0_1_110241024.siIdx (ix3 j k h)
      ⟨List.idxOf (0 : Fin S64x1024x1024.rank) gather_S64x1024x1024_S256x1_S256x1024x1024_12_0_n_n_0_1_110241024.startIndexMap,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl
theorem opW_1 (idx : IVec S256x1 32) (j : Fin 256) (k h : Fin 1024) :
    gather_S64x1024x1024_S256x1_S256x1024x1024_12_0_n_n_0_1_110241024.start (ix3 j k h) idx (1 : Fin S64x1024x1024.rank)
      + gather_S64x1024x1024_S256x1_S256x1024x1024_12_0_n_n_0_1_110241024.batchCoord (ix3 j k h) (1 : Fin S64x1024x1024.rank)
      + gather_S64x1024x1024_S256x1_S256x1024x1024_12_0_n_n_0_1_110241024.offCoord (ix3 j k h) (1 : Fin S64x1024x1024.rank)
      = k.val := by
  rw [GatherDims.batchCoord_eq_zero _ _ _ List.not_mem_nil, Nat.add_zero]
  unfold GatherDims.start GatherDims.offCoord
  rw [dif_neg (by decide), dif_pos (by decide)]
  show 0 + k.val = k.val
  omega
theorem opW_2 (idx : IVec S256x1 32) (j : Fin 256) (k h : Fin 1024) :
    gather_S64x1024x1024_S256x1_S256x1024x1024_12_0_n_n_0_1_110241024.start (ix3 j k h) idx (2 : Fin S64x1024x1024.rank)
      + gather_S64x1024x1024_S256x1_S256x1024x1024_12_0_n_n_0_1_110241024.batchCoord (ix3 j k h) (2 : Fin S64x1024x1024.rank)
      + gather_S64x1024x1024_S256x1_S256x1024x1024_12_0_n_n_0_1_110241024.offCoord (ix3 j k h) (2 : Fin S64x1024x1024.rank)
      = h.val := by
  rw [GatherDims.batchCoord_eq_zero _ _ _ List.not_mem_nil, Nat.add_zero]
  unfold GatherDims.start GatherDims.offCoord
  rw [dif_neg (by decide), dif_pos (by decide)]
  show 0 + h.val = h.val
  omega

/-- The gather of matrices read at `(j, k, h)`: the matrix at the clamped start index of row `j`, at `(k, h)`. -/
theorem gatherW_apply (x : S64x1024x1024.Idx → EReal) (idx : IVec S256x1 32) (j : Fin 256) (k h : Fin 1024) (q : Fin 64)
    (hq : q.val = min (idx (ix2 j (0 : Fin 1))).toInt.toNat 63) :
    Host.gather gather_S64x1024x1024_S256x1_S256x1024x1024_12_0_n_n_0_1_110241024 x idx (ix3 j k h) = x (ix3 q k h) := by
  unfold Host.gather
  refine congrArg x (funext fun a => Fin.ext ?_)
  match a with
  | ⟨0, _⟩ => exact (opW_0 idx j k h).trans hq.symm
  | ⟨1, _⟩ => exact opW_1 idx j k h
  | ⟨2, _⟩ => exact opW_2 idx j k h

theorem opB_0 (idx : IVec S256x1 32) (j : Fin 256) (h : Fin 1024) :
    gather_S64x1024_S256x1_S256x1024_1_0_n_n_0_1_11024.start (ix2 j h) idx (0 : Fin S64x1024.rank)
      + gather_S64x1024_S256x1_S256x1024_1_0_n_n_0_1_11024.batchCoord (ix2 j h) (0 : Fin S64x1024.rank)
      + gather_S64x1024_S256x1_S256x1024_1_0_n_n_0_1_11024.offCoord (ix2 j h) (0 : Fin S64x1024.rank)
      = min (idx (ix2 j (0 : Fin 1))).toInt.toNat 63 := by
  rw [GatherDims.batchCoord_eq_zero _ _ _ List.not_mem_nil, Nat.add_zero,
    GatherDims.offCoord_eq_zero _ _ _ (fun hm => ((GatherDims.mem_sKept _ _).mp hm).1 (List.mem_singleton.mpr rfl)), Nat.add_zero]
  unfold GatherDims.start
  rw [dif_pos (show (0 : Fin S64x1024.rank) ∈ gather_S64x1024_S256x1_S256x1024_1_0_n_n_0_1_11024.startIndexMap from List.mem_singleton.mpr rfl)]
  have hsi : gather_S64x1024_S256x1_S256x1024_1_0_n_n_0_1_11024.siIdx (ix2 j h)
      ⟨List.idxOf (0 : Fin S64x1024.rank) gather_S64x1024_S256x1_S256x1024_1_0_n_n_0_1_11024.startIndexMap,
        List.idxOf_lt_length_iff.2 (List.mem_singleton.mpr rfl)⟩ = ix2 j (0 : Fin 1) := by
    funext b; refine Fin.ext ?_
    match b with
    | ⟨0, _⟩ => rfl
    | ⟨1, _⟩ => rfl
  rw [hsi]
  rfl
theorem opB_1 (idx : IVec S256x1 32) (j : Fin 256) (h : Fin 1024) :
    gather_S64x1024_S256x1_S256x1024_1_0_n_n_0_1_11024.start (ix2 j h) idx (1 : Fin S64x1024.rank)
      + gather_S64x1024_S256x1_S256x1024_1_0_n_n_0_1_11024.batchCoord (ix2 j h) (1 : Fin S64x1024.rank)
      + gather_S64x1024_S256x1_S256x1024_1_0_n_n_0_1_11024.offCoord (ix2 j h) (1 : Fin S64x1024.rank)
      = h.val := by
  rw [GatherDims.batchCoord_eq_zero _ _ _ List.not_mem_nil, Nat.add_zero]
  unfold GatherDims.start GatherDims.offCoord
  rw [dif_neg (by decide), dif_pos (by decide)]
  show 0 + h.val = h.val
  omega

/-- The gather of bias rows read at `(j, h)`: the row at the clamped start index of row `j`, at `h`. -/
theorem gatherB_apply (x : S64x1024.Idx → EReal) (idx : IVec S256x1 32) (j : Fin 256) (h : Fin 1024) (q : Fin 64)
    (hq : q.val = min (idx (ix2 j (0 : Fin 1))).toInt.toNat 63) :
    Host.gather gather_S64x1024_S256x1_S256x1024_1_0_n_n_0_1_11024 x idx (ix2 j h) = x (ix2 q h) := by
  unfold Host.gather
  refine congrArg x (funext fun a => Fin.ext ?_)
  match a with
  | ⟨0, _⟩ => exact (opB_0 idx j h).trans hq.symm
  | ⟨1, _⟩ => exact opB_1 idx j h

/-- The column of start indices at row `j` is the wrapped id of sample `j` (both gathers take the same column). -/
theorem start5_apply (x1 : IVec S256 32) (j : Fin 256) : val_main_v5 (F := Ideal) x1 (ix2 j (0 : Fin 1)) = wrapped x1 j := by
  rw [val_main_v5_apply]
  exact congrArg (val_main_v4 (F := Ideal) x1) (funext fun a => Fin.ext (by match a with | ⟨0, _⟩ => rfl))
theorem start12_apply (x1 : IVec S256 32) (j : Fin 256) : val_main_v12 (F := Ideal) x1 (ix2 j (0 : Fin 1)) = wrapped x1 j := by
  rw [val_main_v12_apply]
  exact congrArg (val_main_v4 (F := Ideal) x1) (funext fun a => Fin.ext (by match a with | ⟨0, _⟩ => rfl))

/-- THE REFERENCE IS THE SPECIFICATION at its own selector. -/
theorem ref_eq (x0 : S256x64x1024.Idx → EReal) (x1 : IVec S256 32) (x2 : S64x1024x1024.Idx → EReal) (x3 : S64x1024.Idx → EReal) :
    val_main_v17 (F := Ideal) x0 x1 x2 x3 = G (rsel x1) x0 x2 x3 := by
  funext i
  obtain ⟨j, s, h, rfl⟩ : ∃ (j : Fin 256) (s : Fin 64) (h : Fin 1024), i = ix3 j s h := ⟨i 0, i 1, i 2, eq_ix3 i⟩
  rw [G_ix3, val_main_v17_apply, val_main_v14_apply, val_main_v16_apply, val_main_v15_apply]
  unfold entry
  show _ + _ = _
  refine congrArg₂ (· + ·) (Finset.sum_congr rfl fun k _ => congrArg₂ (· * ·) ?_ ?_) ?_
  · exact congrArg x0 (funext fun a => Fin.ext (by
      match a with
      | ⟨0, _⟩ => rfl
      | ⟨1, _⟩ => rfl
      | ⟨2, _⟩ => rfl))
  · have hr : ridx_main_v14 (ix3 j s h) k = ix3 j k h := funext fun a => Fin.ext (by
      match a with
      | ⟨0, _⟩ => rfl
      | ⟨1, _⟩ => rfl
      | ⟨2, _⟩ => rfl)
    rw [hr]
    unfold val_main_v6
    exact gatherW_apply _ _ j k h (rsel x1 j) (by
      show min (wrapped x1 j).toInt.toNat 63 = _
      rw [start5_apply])
  · have hb : idx_main_v15 (idx_main_v16 (ix3 j s h)) = ix2 j h := funext fun a => Fin.ext (by
      match a with
      | ⟨0, _⟩ => rfl
      | ⟨1, _⟩ => rfl)
    rw [hb]
    unfold val_main_v13
    exact gatherB_apply _ _ j h (rsel x1 j) (by
      show min (wrapped x1 j).toInt.toNat 63 = _
      rw [start12_apply])

end Cert.ReferenceIdeal.RefValue

end
-- ==== Proof.Selectors.lean ====
/-
  On category ids in [0, 64) the two programs select the same category.

  The reference wraps a negative id by 64 and lets the gather clamp the result into [0, 63]; the kernel clamps the id into
  [0, 63] before anything else. An id `c` with `0 ≤ c < 64` is not negative, so the wrap leaves it, and it is inside
  [0, 63], so either clamp leaves it: both select category `c`. (Outside that range they differ: at `c = -1` the reference
  selects 63 and the kernel 0, which is why the claim is stated for ids in range.)
-/
import proofs.«424918_j82471962017991_2_alg».proof.Proof.RefValue
import proofs.«424918_j82471962017991_2_alg».proof.Proof.TableReads

noncomputable section

namespace Cert.Proof.Selectors

open Idealize.ShloMosaic Idealize.ShloMosaic.ValueIdx
open Cert.WordsLib

theorem rsel_eq_sel (x1 : IVec Cert.KernelIdeal.S256 32)
    (hr : ∀ i : Cert.KernelIdeal.S256.Idx, 0 ≤ (x1 i).toInt ∧ (x1 i).toInt < 64) :
    Cert.ReferenceIdeal.RefValue.rsel x1 = Cert.KernelIdeal.Tables.sel x1 := by
  funext j
  refine Fin.ext ?_
  obtain ⟨h0, h1⟩ := hr (ix1 j)
  have hn : (x1 (ix1 j)).toNat < 64 := by
    rcases toInt_cases (x1 (ix1 j)) with ⟨_, e⟩ | ⟨_, e⟩ <;> omega
  have hw : Cert.ReferenceIdeal.RefValue.wrapped x1 j = x1 (ix1 j) := by
    unfold Cert.ReferenceIdeal.RefValue.wrapped
    rw [Cert.ReferenceIdeal.Read.val_main_v4_apply, Cert.ReferenceIdeal.Read.val_main_v1_apply,
      Cert.ReferenceIdeal.Read.val_main_v3_apply, Cert.ReferenceIdeal.Read.val_main_v0_apply,
      Cert.ReferenceIdeal.Read.val_main_c_apply]
    exact select_wrap_of_nonneg _ _ (by omega)
  show min (Cert.ReferenceIdeal.RefValue.wrapped x1 j).toInt.toNat 63 = (Cert.KernelIdeal.Tables.clipv x1 (ix1 j)).toNat
  rw [hw, toInt_toNat_of_lt _ (by omega), Cert.KernelIdeal.Tables.clipv_apply, clip63_of_range _ h0 h1]
  omega

end Cert.Proof.Selectors

end
-- ==== Proof.PreRange.lean ====
/-
  The precondition, decoded at the category ids.

  The precondition is a conjunction: every float input is finite, and every category id `c` satisfies `c ≥ 0` and `c < 64`
  (signed). Each `all(…)` is a reduction by `and` from 1 over the whole array, so if the conjunction is 1, each comparison
  is 1 at every index: every id is in [0, 64). The finiteness conjuncts are not needed by this certificate: the two
  programs compute the same sum of products and the same added bias, term by term, and no algebraic law that fails at an
  infinity is used.
-/
import proofs.«424918_j82471962017991_2_alg».proof.Proof.Gen.Pre_finite_inputs
import Idealize.ShloMosaic.Lib.ReduceAll
import Idealize.ShloMosaic.Lib.Pipeline.Value
import Idealize.ShloMosaic.Lib.ValueIdx

noncomputable section

namespace Cert.Pre_finite_inputs.Range

open Cert.Pre_finite_inputs Cert.Pre_finite_inputs.Gen
open Idealize.ShloMosaic Idealize.ShloMosaic.ValueIdx

variable {F : FTy → Type} [FloatOps F]

instance : Subsingleton S_.Idx := ⟨fun a b => funext fun d => d.elim0⟩

/-- Under the precondition every category id is in [0, 64), signed. -/
theorem ids_in_range (x0 : FVec F S256x64x1024 .f32) (x1 : IVec S256 32) (x2 : FVec F S64x1024x1024 .f32)
    (x3 : FVec F S64x1024 .f32) (h : fn (F := F) x0 x1 x2 x3 = fun _ => 1#1) (i : S256.Idx) :
    0 ≤ (x1 i).toInt ∧ (x1 i).toInt < 64 := by
  have e := congrFun h ix0
  dsimp only [fn, fn_part1] at e
  obtain ⟨e1, e2⟩ := IntOp.andi_eq_one.mp e
  obtain ⟨_, e3⟩ := IntOp.andi_eq_one.mp e1
  have hlt := Host.reduce_andi_all _ _ _ _ ix0 e2 i
  have hge := Host.reduce_andi_all _ _ _ _ ix0 e3 i
  have h64 : (broadcastInDim S256 ![] bcast_S_S256 (constantI S_ 32 64#32) : IVec S256 32) i = 64#32 :=
    broadcastInDim_apply _ bcast_S_S256 _ i (fun a => a.elim0) (fun a => a.elim0)
  have h0 : (broadcastInDim S256 ![] bcast_S_S256 (constantI S_ 32 0#32) : IVec S256 32) i = 0#32 :=
    broadcastInDim_apply _ bcast_S_S256 _ i (fun a => a.elim0) (fun a => a.elim0)
  have hlt' : IntOp.cmpi .slt (x1 i) ((broadcastInDim S256 ![] bcast_S_S256 (constantI S_ 32 64#32) : IVec S256 32) i) = 1#1 := hlt
  have hge' : IntOp.cmpi .sge (x1 i) ((broadcastInDim S256 ![] bcast_S_S256 (constantI S_ 32 0#32) : IVec S256 32) i) = 1#1 := hge
  rw [h64] at hlt'
  rw [h0] at hge'
  have a := IntOp.cmpi_slt.mp hlt'
  have b := IntOp.cmpi_sge.mp hge'
  have e0 : (0#32 : BitVec 32).toInt = 0 := by decide
  have e64 : (64#32 : BitVec 32).toInt = 64 := by decide
  rw [e64] at a
  rw [e0] at b
  exact ⟨b, a⟩

end Cert.Pre_finite_inputs.Range

end
-- ==== Proof.lean ====
/-
  A category-specific linear layer: for each of 256 samples, its [64, 1024] block of `x` times the [1024, 1024] matrix of
  the sample's category, plus that category's bias row.

  The reference computes it directly: it gathers the matrix and the bias row of each sample's category and does one
  batched product. The kernel clamps the category ids into [0, 63], sorts the samples by clamped id, and runs one grid
  point per sample in sorted order, its index maps reading the sorted sample numbers and their categories from two
  prefetched tables, so that consecutive points mostly reuse the matrix they already hold; each point writes its sample's
  block of the output.

  * The two frames of the kernel hold for every launch memory: every entry of the first table is a sample number below
    256 and every entry of the second a clamped id below 64, so each window's block lies inside its array
    (Proof/TablesBits.lean, Proof/TablesIdeal.lean).
  * The reference's frame is its run with the result dropped.
  * The idealization rewrote nothing.
  * Over the extended reals: the sorting permutation is a bijection of the grid points onto the samples, so the blocks
    the kernel writes cover the output, and at each sample the kernel's body computes, from the blocks its tables name,
    the same sum of products plus bias as the reference — GIVEN that the two select the same category. The reference wraps
    a negative id and lets the gather clamp; the kernel clamps. For an id in [0, 64), which the precondition states, both
    select the id itself (Proof/Selectors.lean). No law that fails at an infinity is used: the finiteness conjuncts of
    the precondition are not needed.
-/
import proofs.«424918_j82471962017991_2_alg».proof.Defs
import proofs.«424918_j82471962017991_2_alg».proof.Proof.Gen.Kernel
import proofs.«424918_j82471962017991_2_alg».proof.Proof.Gen.Kernel.Frame
import proofs.«424918_j82471962017991_2_alg».proof.Proof.Gen.KernelIdeal
import proofs.«424918_j82471962017991_2_alg».proof.Proof.Gen.KernelIdeal.Frame
import proofs.«424918_j82471962017991_2_alg».proof.Proof.Gen.ReferenceIdeal
import proofs.«424918_j82471962017991_2_alg».proof.Proof.Gen.ReferenceIdeal.Run
import proofs.«424918_j82471962017991_2_alg».proof.Proof.Gen.ReferenceIdeal.Read
import proofs.«424918_j82471962017991_2_alg».proof.Proof.Gen.Pre_finite_inputs
import proofs.«424918_j82471962017991_2_alg».proof.Proof.TablesBits
import proofs.«424918_j82471962017991_2_alg».proof.Proof.KernelRun
import proofs.«424918_j82471962017991_2_alg».proof.Proof.RefValue
import proofs.«424918_j82471962017991_2_alg».proof.Proof.Selectors
import proofs.«424918_j82471962017991_2_alg».proof.Proof.PreRange
import Idealize.ShloMosaic.Adequacy
import Idealize.ShloMosaic.Init

noncomputable section

namespace Cert.Proof

open Idealize.ShloMosaic Idealize.SL.Sem

/-- The kernel as printed: its tables' side condition holds of every launch memory. -/
theorem frame_k : Cert.frame_Kernel := fun m ρ _ => Cert.Kernel.Gen.frame m ρ (Cert.Kernel.Tables.ok m)

/-- The same of its idealization. -/
theorem frame_ki : Cert.frame_KernelIdeal := fun m ρ _ => Cert.KernelIdeal.Gen.frame m ρ (Cert.KernelIdeal.Tables.ok m)

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer's output at the category each sample's id names. -/
theorem algebraic : Cert.algebraic_KernelIdeal_ReferenceIdeal := by
  intro m ρ m' ρ' hpre hagree
  refine ⟨_, Cert.KernelIdeal.Routed.run m ρ, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v17_eq, Cert.ReferenceIdeal.RefValue.ref_eq, (hagree 0).1, (hagree 0).2.1,
    (hagree 0).2.2.1, (hagree 0).2.2.2,
    Cert.Proof.Selectors.rsel_eq_sel _ (Cert.Pre_finite_inputs.Range.ids_in_range _ _ _ _ (hpre 0))]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
